-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S600000 : Shape := ⟨1, ![600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x16 .f32) (main_arg4 : FVec F S16 .f32) (main_arg5 : IVec S600000 32) (main_arg6 : IVec S600000 32) (main_arg7 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S1000x128 : Shape := ⟨2, ![1000, 128]⟩
abbrev S650000x128 : Shape := ⟨2, ![650000, 128]⟩
abbrev S1x128 : Shape := ⟨2, ![1, 128]⟩
abbrev S50000x16 : Shape := ⟨2, ![50000, 16]⟩
abbrev S1000x16 : Shape := ⟨2, ![1000, 16]⟩
abbrev S650000x16 : Shape := ⟨2, ![650000, 16]⟩
abbrev S1x16 : Shape := ⟨2, ![1, 16]⟩
abbrev S500 : Shape := ⟨1, ![500]⟩
abbrev S50000x1 : Shape := ⟨2, ![50000, 1]⟩
abbrev S500x16 : Shape := ⟨2, ![500, 16]⟩
abbrev S500x1 : Shape := ⟨2, ![500, 1]⟩

abbrev nBuf : Space → Nat
  | .hbm => 111
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S600000, .i32⟩
  | .hbm, ⟨6, _⟩ => ⟨S600000, .i32⟩
  | .hbm, ⟨7, _⟩ => ⟨S50000, .i32⟩
  | .hbm, ⟨8, _⟩ => ⟨S50000, .i32⟩
  | .hbm, ⟨9, _⟩ => ⟨S650000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S650000, .i32⟩
  | .hbm, ⟨20, _⟩ => ⟨S650000, .i1⟩
  | .hbm, ⟨21, _⟩ => ⟨S_, .i32⟩
  | .hbm, ⟨22, _⟩ => ⟨S650000, .i32⟩
  | .hbm, ⟨23, _⟩ => ⟨S650000, .i32⟩
  | .hbm, ⟨24, _⟩ => ⟨S650000, .i32⟩
  | .hbm, ⟨25, _⟩ => ⟨S650000x1, .i32⟩
  | .hbm, ⟨26, _⟩ => ⟨S650000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S50000x128, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000x128, .f32⟩
  | .hbm, ⟨47, _⟩ => ⟨S650000x1, .f32⟩
  | .hbm, ⟨48, _⟩ => ⟨S650000x128, .f32⟩
  | .hbm, ⟨49, _⟩ => ⟨S650000x128, .f32⟩
  | .hbm, ⟨50, _⟩ => ⟨S_, .f32⟩
  | .hbm, ⟨51, _⟩ => ⟨S50000x128, .f32⟩
  | .hbm, ⟨52, _⟩ => ⟨S650000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x16, .f32⟩
  | .hbm, ⟨61, _⟩ => ⟨S_, .i32⟩
  | .hbm, ⟨62, _⟩ => ⟨S650000, .i32⟩
  | .hbm, ⟨63, _⟩ => ⟨S650000, .i1⟩
  | .hbm, ⟨64, _⟩ => ⟨S_, .i32⟩
  | .hbm, ⟨65, _⟩ => ⟨S650000, .i32⟩
  | .hbm, ⟨66, _⟩ => ⟨S650000, .i32⟩
  | .hbm, ⟨67, _⟩ => ⟨S650000, .i32⟩
  | .hbm, ⟨68, _⟩ => ⟨S650000x1, .i32⟩
  | .hbm, ⟨69, _⟩ => ⟨S650000x16, .f32⟩
  | .hbm, ⟨70, _⟩ => ⟨S650000x1, .f32⟩
  | .hbm, ⟨71, _⟩ => ⟨S650000x16, .f32⟩
  | .hbm, ⟨72, _⟩ => ⟨S650000x16, .f32⟩
  | .hbm, ⟨73, _⟩ => ⟨S_, .f32⟩
  | .hbm, ⟨74, _⟩ => ⟨S50000x16, .f32⟩
  | .hbm, ⟨75, _⟩ => ⟨S650000x1, .i32⟩
  | .hbm, ⟨76, _⟩ => ⟨S50000x16, .f32⟩
  | .hbm, ⟨77, _⟩ => ⟨S1x16, .f32⟩
  | .hbm, ⟨78, _⟩ => ⟨S50000x16, .f32⟩
  | .hbm, ⟨79, _⟩ => ⟨S50000x16, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S500, .f32⟩
  | .hbm, ⟨84, _⟩ => ⟨S50000x1, .i32⟩
  | .hbm, ⟨85, _⟩ => ⟨S500, .f32⟩
  | .hbm, ⟨86, _⟩ => ⟨S_, .f32⟩
  | .hbm, ⟨87, _⟩ => ⟨S500x16, .f32⟩
  | .hbm, ⟨88, _⟩ => ⟨S50000x1, .i32⟩
  | .hbm, ⟨89, _⟩ => ⟨S500x16, .f32⟩
  | .hbm, ⟨90, _⟩ => ⟨S_, .f32⟩
  | .hbm, ⟨91, _⟩ => ⟨S500, .f32⟩
  | .hbm, ⟨92, _⟩ => ⟨S500, .f32⟩
  | .hbm, ⟨93, _⟩ => ⟨S500x1, .f32⟩
  | .hbm, ⟨94, _⟩ => ⟨S500x16, .f32⟩
  | .hbm, ⟨95, _⟩ => ⟨S500x16, .f32⟩
  | .hbm, ⟨96, _⟩ => ⟨S_, .f32⟩
  | .hbm, ⟨97, _⟩ => ⟨S500, .f32⟩
  | .hbm, ⟨98, _⟩ => ⟨S_, .f32⟩
  | .hbm, ⟨99, _⟩ => ⟨S500, .f32⟩
  | .hbm, ⟨100, _⟩ => ⟨S500, .f32⟩
  | .hbm, ⟨101, _⟩ => ⟨S500x1, .f32⟩
  | .hbm, ⟨102, _⟩ => ⟨S500x16, .f32⟩
  | .hbm, ⟨103, _⟩ => ⟨S500x16, .f32⟩
  | .hbm, ⟨104, _⟩ => ⟨S500x16, .f32⟩
  | .hbm, ⟨105, _⟩ => ⟨S_, .f32⟩
  | .hbm, ⟨106, _⟩ => ⟨S500, .f32⟩
  | .hbm, ⟨107, _⟩ => ⟨S500x1, .f32⟩
  | .hbm, ⟨108, _⟩ => ⟨S500x1, .f32⟩
  | .hbm, ⟨109, _⟩ => ⟨S500x16, .f32⟩
  | .hbm, ⟨110, _⟩ => ⟨S500x16, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S128x16, .f32⟩
  | .local _ .vmem, ⟨8, _⟩ => ⟨S1000x16, .f32⟩
  | .local _ .vmem, ⟨9, _⟩ => ⟨S1000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call1_cst : Ref sig .tc := ⟨.hbm, 96, rfl⟩
abbrev main_call1_v0 : Ref sig .tc := ⟨.hbm, 97, rfl⟩
abbrev main_call1_cst_0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_cst_1 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_v70 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S1000x128_S1000x128 : S1000x128.ShapeCasts S1000x128
  inb_S128x16_S128x16_0_0 : ∀ a, (![0, 0] : Fin 2 → Nat) a + S128x16.size a ≤ S128x16.size a
  h_S128x16 : 0 < S128x16.numel
  inb_S1000x16_S1000x16_0_0 : ∀ a, (![0, 0] : Fin 2 → Nat) a + S1000x16.size a ≤ S1000x16.size a
  h_S1000x16 : 0 < S1000x16.numel
  bcast_S650000x1_S650000x16_0_1 : S650000x1.BroadcastsInDim S650000x16 (![0, 1] : Fin 2 → Fin S650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S500 : S_.BroadcastsInDim S500 (![] : Fin 0 → Fin S500.rank)
  bcast_S50000_S50000x1_0 : S50000.BroadcastsInDim S50000x1 (![0] : Fin 1 → Fin S50000x1.rank)
  bcast_S_S500x16 : S_.BroadcastsInDim S500x16 (![] : Fin 0 → Fin S500x16.rank)
  bcast_S500_S500x1_0 : S500.BroadcastsInDim S500x1 (![0] : Fin 1 → Fin S500x1.rank)
  bcast_S500x1_S500x16_0_1 : S500x1.BroadcastsInDim S500x16 (![0, 1] : Fin 2 → Fin S500x16.rank)
  reducesTo_S500x16_S500_d1 : S500x16.ReducesTo [1] S500
  h_S_ : 0 < S_.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S1000x128_S128x128_S1000x128_1_0_0_1_n_n_wf : DotDims.WF S1000x128 S128x128 S1000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S1000x128_S128x16_S1000x16_1_0_0_1_n_n_wf : DotDims.WF S1000x128 S128x16 S1000x16 [1] [0] [0] [1] [] []
  gather_S50000x16_S650000x1_S650000x16_1_0_n_n_0_1_116_wf : GatherDims.WF S50000x16 S650000x1 S650000x16 [1] [0] [] [0] [] 1 ![1, 16]
  scatter_S50000x16_S650000x1_S650000x16_1_0_0_1_wf : ScatterDims.WF S50000x16 S650000x1 S650000x16 [1] [0] [0] 1
  scatter_S500_S50000x1_S50000_n_0_0_1_wf : ScatterDims.WF S500 S50000x1 S50000 [] [0] [0] 1
  scatter_S500x16_S50000x1_S50000x16_1_0_0_1_wf : ScatterDims.WF S500x16 S50000x1 S50000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x16.size a ≤ S50000x16.size a
  hwx1_2 : ∀ i : grid1.Coords, EltTy.bits .f32 = 32 ∨ (Rect.block (s := S50000x16) S1000x16.size (cc1_transform_2 i) (hinb1_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf
def gather_S50000x16_S650000x1_S650000x16_1_0_n_n_0_1_116 : GatherDims S50000x16 S650000x1 S650000x16 where
  offsetDims := [1]
  collapsedSliceDims := [0]
  operandBatchingDims := []
  startIndicesBatchingDims := []
  startIndexMap := [0]
  indexVectorDim := 1
  sliceSizes := ![1, 16]
  wf := gather_S50000x16_S650000x1_S650000x16_1_0_n_n_0_1_116_wf
def scatter_S50000x16_S650000x1_S650000x16_1_0_0_1 : ScatterDims S50000x16 S650000x1 S650000x16 where
  updateWindowDims := [1]
  insertedWindowDims := [0]
  scatterDimsToOperandDims := [0]
  indexVectorDim := 1
  wf := scatter_S50000x16_S650000x1_S650000x16_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x16_S50000x1_S50000x16_1_0_0_1 : ScatterDims S500x16 S50000x1 S50000x16 where
  updateWindowDims := [1]
  insertedWindowDims := [0]
  scatterDimsToOperandDims := [0]
  indexVectorDim := 1
  wf := scatter_S500x16_S50000x1_S50000x16_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x16 : Shape := ⟨2, ![50000, 16]⟩
abbrev S650000x16 : Shape := ⟨2, ![650000, 16]⟩
abbrev S1x16 : Shape := ⟨2, ![1, 16]⟩
abbrev S500 : Shape := ⟨1, ![500]⟩
abbrev S50000x1 : Shape := ⟨2, ![50000, 1]⟩
abbrev S500x16 : Shape := ⟨2, ![500, 16]⟩
abbrev S500x1 : Shape := ⟨2, ![500, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S600000, .i32⟩
  | .hbm, ⟨6, _⟩ => ⟨S600000, .i32⟩
  | .hbm, ⟨7, _⟩ => ⟨S50000, .i32⟩
  | .hbm, ⟨8, _⟩ => ⟨S50000, .i32⟩
  | .hbm, ⟨9, _⟩ => ⟨S650000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S650000, .i32⟩
  | .hbm, ⟨20, _⟩ => ⟨S650000, .i1⟩
  | .hbm, ⟨21, _⟩ => ⟨S_, .i32⟩
  | .hbm, ⟨22, _⟩ => ⟨S650000, .i32⟩
  | .hbm, ⟨23, _⟩ => ⟨S650000, .i32⟩
  | .hbm, ⟨24, _⟩ => ⟨S650000, .i32⟩
  | .hbm, ⟨25, _⟩ => ⟨S650000x1, .i32⟩
  | .hbm, ⟨26, _⟩ => ⟨S650000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S50000x128, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000x128, .f32⟩
  | .hbm, ⟨47, _⟩ => ⟨S650000x1, .f32⟩
  | .hbm, ⟨48, _⟩ => ⟨S650000x128, .f32⟩
  | .hbm, ⟨49, _⟩ => ⟨S650000x128, .f32⟩
  | .hbm, ⟨50, _⟩ => ⟨S_, .f32⟩
  | .hbm, ⟨51, _⟩ => ⟨S50000x128, .f32⟩
  | .hbm, ⟨52, _⟩ => ⟨S650000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x16, .f32⟩
  | .hbm, ⟨61, _⟩ => ⟨S_, .i32⟩
  | .hbm, ⟨62, _⟩ => ⟨S650000, .i32⟩
  | .hbm, ⟨63, _⟩ => ⟨S650000, .i1⟩
  | .hbm, ⟨64, _⟩ => ⟨S_, .i32⟩
  | .hbm, ⟨65, _⟩ => ⟨S650000, .i32⟩
  | .hbm, ⟨66, _⟩ => ⟨S650000, .i32⟩
  | .hbm, ⟨67, _⟩ => ⟨S650000, .i32⟩
  | .hbm, ⟨68, _⟩ => ⟨S650000x1, .i32⟩
  | .hbm, ⟨69, _⟩ => ⟨S650000x16, .f32⟩
  | .hbm, ⟨70, _⟩ => ⟨S650000x1, .f32⟩
  | .hbm, ⟨71, _⟩ => ⟨S650000x16, .f32⟩
  | .hbm, ⟨72, _⟩ => ⟨S650000x16, .f32⟩
  | .hbm, ⟨73, _⟩ => ⟨S_, .f32⟩
  | .hbm, ⟨74, _⟩ => ⟨S50000x16, .f32⟩
  | .hbm, ⟨75, _⟩ => ⟨S650000x1, .i32⟩
  | .hbm, ⟨76, _⟩ => ⟨S50000x16, .f32⟩
  | .hbm, ⟨77, _⟩ => ⟨S1x16, .f32⟩
  | .hbm, ⟨78, _⟩ => ⟨S50000x16, .f32⟩
  | .hbm, ⟨79, _⟩ => ⟨S50000x16, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S500, .f32⟩
  | .hbm, ⟨84, _⟩ => ⟨S50000x1, .i32⟩
  | .hbm, ⟨85, _⟩ => ⟨S500, .f32⟩
  | .hbm, ⟨86, _⟩ => ⟨S_, .f32⟩
  | .hbm, ⟨87, _⟩ => ⟨S500x16, .f32⟩
  | .hbm, ⟨88, _⟩ => ⟨S50000x1, .i32⟩
  | .hbm, ⟨89, _⟩ => ⟨S500x16, .f32⟩
  | .hbm, ⟨90, _⟩ => ⟨S_, .f32⟩
  | .hbm, ⟨91, _⟩ => ⟨S500, .f32⟩
  | .hbm, ⟨92, _⟩ => ⟨S500, .f32⟩
  | .hbm, ⟨93, _⟩ => ⟨S500x1, .f32⟩
  | .hbm, ⟨94, _⟩ => ⟨S500x16, .f32⟩
  | .hbm, ⟨95, _⟩ => ⟨S500x16, .f32⟩
  | .hbm, ⟨96, _⟩ => ⟨S_, .f32⟩
  | .hbm, ⟨97, _⟩ => ⟨S500, .f32⟩
  | .hbm, ⟨98, _⟩ => ⟨S_, .f32⟩
  | .hbm, ⟨99, _⟩ => ⟨S500, .f32⟩
  | .hbm, ⟨100, _⟩ => ⟨S500, .f32⟩
  | .hbm, ⟨101, _⟩ => ⟨S500x1, .f32⟩
  | .hbm, ⟨102, _⟩ => ⟨S500x16, .f32⟩
  | .hbm, ⟨103, _⟩ => ⟨S500x16, .f32⟩
  | .hbm, ⟨104, _⟩ => ⟨S500x16, .f32⟩
  | .hbm, ⟨105, _⟩ => ⟨S_, .f32⟩
  | .hbm, ⟨106, _⟩ => ⟨S500, .f32⟩
  | .hbm, ⟨107, _⟩ => ⟨S500x1, .f32⟩
  | .hbm, ⟨108, _⟩ => ⟨S500x1, .f32⟩
  | .hbm, ⟨109, _⟩ => ⟨S500x16, .f32⟩
  | .hbm, ⟨110, _⟩ => ⟨S500x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call1_cst : Ref sig .tc := ⟨.hbm, 96, rfl⟩
abbrev main_call1_v0 : Ref sig .tc := ⟨.hbm, 97, rfl⟩
abbrev main_call1_cst_0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_cst_1 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_v70 : Ref sig .tc := ⟨.hbm, 110, rfl⟩

abbrev nD : Nat := 1
abbrev τ : Topo := Topo.v7x

variable {F : FTy → Type} [FloatOps F]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x16_0_1 : S650000x1.BroadcastsInDim S650000x16 (![0, 1] : Fin 2 → Fin S650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S500 : S_.BroadcastsInDim S500 (![] : Fin 0 → Fin S500.rank)
  bcast_S50000_S50000x1_0 : S50000.BroadcastsInDim S50000x1 (![0] : Fin 1 → Fin S50000x1.rank)
  bcast_S_S500x16 : S_.BroadcastsInDim S500x16 (![] : Fin 0 → Fin S500x16.rank)
  bcast_S500_S500x1_0 : S500.BroadcastsInDim S500x1 (![0] : Fin 1 → Fin S500x1.rank)
  bcast_S500x1_S500x16_0_1 : S500x1.BroadcastsInDim S500x16 (![0, 1] : Fin 2 → Fin S500x16.rank)
  reducesTo_S500x16_S500_d1 : S500x16.ReducesTo [1] S500
  h_S_ : 0 < S_.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x16_S50000x16_1_0_0_1_n_n_wf : DotDims.WF S50000x128 S128x16 S50000x16 [1] [0] [0] [1] [] []
  gather_S50000x16_S650000x1_S650000x16_1_0_n_n_0_1_116_wf : GatherDims.WF S50000x16 S650000x1 S650000x16 [1] [0] [] [0] [] 1 ![1, 16]
  scatter_S50000x16_S650000x1_S650000x16_1_0_0_1_wf : ScatterDims.WF S50000x16 S650000x1 S650000x16 [1] [0] [0] 1
  scatter_S500_S50000x1_S50000_n_0_0_1_wf : ScatterDims.WF S500 S50000x1 S50000 [] [0] [0] 1
  scatter_S500x16_S50000x1_S50000x16_1_0_0_1_wf : ScatterDims.WF S500x16 S50000x1 S50000x16 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S650000x1_S650000x16_1_0_n_n_0_1_116 : GatherDims S50000x16 S650000x1 S650000x16 where
  offsetDims := [1]
  collapsedSliceDims := [0]
  operandBatchingDims := []
  startIndicesBatchingDims := []
  startIndexMap := [0]
  indexVectorDim := 1
  sliceSizes := ![1, 16]
  wf := gather_S50000x16_S650000x1_S650000x16_1_0_n_n_0_1_116_wf
def scatter_S50000x16_S650000x1_S650000x16_1_0_0_1 : ScatterDims S50000x16 S650000x1 S650000x16 where
  updateWindowDims := [1]
  insertedWindowDims := [0]
  scatterDimsToOperandDims := [0]
  indexVectorDim := 1
  wf := scatter_S50000x16_S650000x1_S650000x16_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x16_S50000x1_S50000x16_1_0_0_1 : ScatterDims S500x16 S50000x1 S50000x16 where
  updateWindowDims := [1]
  insertedWindowDims := [0]
  scatterDimsToOperandDims := [0]
  indexVectorDim := 1
  wf := scatter_S500x16_S50000x1_S50000x16_1_0_0_1_wf

class Facts : Prop extends Facts₀ where

variable [Facts]
-- ==== Proof.HostDots.lean ====
/-
  The program's two matrix products, written as host operations on the kernel program's own buffers.

  The kernel program computes `x · W1` and `h · W2` (h the rectified first layer) in two pipelined regions, fifty
  row blocks of a thousand rows each; everything else in it is host arithmetic. Read over the exact reals, a region's
  effect on the buffers is that of ONE host product of the two whole arrays, contracting the left operand's axis 1 with
  the right operand's axis 0. This module names those two products (their dimension records over the full 50000-row
  shapes) and the list of operations the whole program then amounts to: the five stretches of host operations with one
  product standing where each region stood.
-/
import proofs.«128289_j84808424227221_1_alg».proof.Proof.Gen.KernelIdeal.Launch
import Idealize.ShloMosaic.Lib.StableHlo.Run
import Idealize.ShloMosaic.Lib.Pipeline.Frame

noncomputable section

namespace Cert.KernelIdeal.Dots

open Cert.KernelIdeal Cert.KernelIdeal.Gen Idealize.ShloMosaic Idealize.ShloMosaic.TcCoe Idealize.SL.Sem

variable {F : FTy → Type} [FloatOps F]

/-- [50000, 128] times [128, 128]: rows by contraction, contraction by columns, no batch axis. -/
theorem xw1_wf : DotDims.WF S50000x128 S128x128 S50000x128 [1] [0] [0] [1] [] [] := by decide
def xw1 : DotDims S50000x128 S128x128 S50000x128 where
  lhsContracting := [1]
  rhsContracting := [0]
  lhsNonContracting := [0]
  rhsNonContracting := [1]
  lhsBatch := []
  rhsBatch := []
  wf := xw1_wf

/-- [50000, 128] times [128, 16], the same way. -/
theorem hw2_wf : DotDims.WF S50000x128 S128x16 S50000x16 [1] [0] [0] [1] [] [] := by decide
def hw2 : DotDims S50000x128 S128x16 S50000x16 where
  lhsContracting := [1]
  rhsContracting := [0]
  lhsNonContracting := [0]
  rhsNonContracting := [1]
  lhsBatch := []
  rhsBatch := []
  wf := hw2_wf

/-- The first product as a host operation: the node features times the first weight matrix, into the buffer the
    first region's output window writes. -/
abbrev dotOp1 : HloOp τ sig (Elt F) :=
  StableHlo.binary main_arg0 main_arg1 main_v23 ((fun l r => Host.dotGeneral xw1 none l r) : (⟨S50000x128, .f32⟩ : BufTy).Contents (Elt F) → (⟨S128x128, .f32⟩ : BufTy).Contents (Elt F) → (⟨S50000x128, .f32⟩ : BufTy).Contents (Elt F))

/-- The second product: the rectified first layer times the second weight matrix, into the second region's output. -/
abbrev dotOp2 : HloOp τ sig (Elt F) :=
  StableHlo.binary main_v40 main_arg3 main_v41 ((fun l r => Host.dotGeneral hw2 none l r) : (⟨S50000x128, .f32⟩ : BufTy).Contents (Elt F) → (⟨S128x16, .f32⟩ : BufTy).Contents (Elt F) → (⟨S50000x16, .f32⟩ : BufTy).Contents (Elt F))

/-- A product writes its own result buffer and nothing else. -/
theorem dotOp1_writes : (dotOp1 (F := F)).writes = {Proc.devRef .tc main_v23} := rfl
theorem dotOp2_writes : (dotOp2 (F := F)).writes = {Proc.devRef .tc main_v41} := rfl

end Cert.KernelIdeal.Dots

end
-- ==== Proof.Region0.lean ====
/-
  The first region as a value, over the exact reals.

  The region walks fifty grid points; at point t its body loads rows 1000·t … 1000·t + 999 of the left array (all 128
  columns) and the whole right array, multiplies them from a zero accumulator (the narrowing to bf16 before the
  product is the identity over the reals) and stores the 1000 × 128 result, which the pipeline writes back as rows
  1000·t … 1000·t + 999 of the output array. Entry (r, j) of a block's product is ∑ₖ left(r, k) · right(k, j), and
  entry (i, j) of the whole arrays' product is the same sum with r = i: so every block written back is the
  corresponding block of ONE whole-array product, the fifty blocks tile the 50000 rows, and the output array ends
  holding the product of the two arrays as the region found them.
-/
import proofs.«128289_j84808424227221_1_alg».proof.Proof.Gen.KernelIdeal.Frame
import proofs.«128289_j84808424227221_1_alg».proof.Proof.HostDots
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.KernelIdeal.Dots Idealize.ShloMosaic Idealize.ShloMosaic.TcCoe Idealize.SL.Sem
open Idealize.ShloMosaic.Pipeline (Dat)

/-! ## Where a product reads its operands -/

/-- Entry (r, ·) of a block's product reads the left block at (r, k) … -/
abbrev lblk (y : S1000x128.Idx) (k : Fin 128) : S1000x128.Idx := fun a => match a with
  | ⟨0, _⟩ => ⟨(y 0).val, (y 0).isLt⟩
  | ⟨1, _⟩ => ⟨k.val, k.isLt⟩
/-- … and entry (·, j) reads the right array at (k, j). -/
abbrev rblk (y : S1000x128.Idx) (k : Fin 128) : S128x128.Idx := fun a => match a with
  | ⟨0, _⟩ => ⟨k.val, k.isLt⟩
  | ⟨1, _⟩ => ⟨(y 1).val, (y 1).isLt⟩
/-- The same for the whole arrays. -/
abbrev larr (i : S50000x128.Idx) (k : Fin 128) : S50000x128.Idx := fun a => match a with
  | ⟨0, _⟩ => ⟨(i 0).val, (i 0).isLt⟩
  | ⟨1, _⟩ => ⟨k.val, k.isLt⟩
abbrev rarr (i : S50000x128.Idx) (k : Fin 128) : S128x128.Idx := fun a => match a with
  | ⟨0, _⟩ => ⟨k.val, k.isLt⟩
  | ⟨1, _⟩ => ⟨(i 1).val, (i 1).isLt⟩

/-! The operand indices of the block's product, axis by axis. -/
theorem blk_lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem blk_lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem blk_rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem blk_rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-! The operand indices of the whole arrays' product, axis by axis. -/
theorem arr_lhs_0 (i : S50000x128.Idx) (q : xw1.contr.Idx) : (xw1.lhsIdx i q 0).val = (i 0).val := by
  unfold DotDims.lhsIdx
  rw [dif_neg (show ¬(0 : Fin S50000x128.rank) ∈ xw1.lhsBatch by decide), dif_pos (show (0 : Fin S50000x128.rank) ∈ xw1.lhsNonContracting by decide)]
  rfl
theorem arr_lhs_1 (i : S50000x128.Idx) (q : xw1.contr.Idx) : (xw1.lhsIdx i q 1).val = (q ⟨0, by decide⟩).val :=
  xw1.lhsIdx_val_of_single rfl i q
theorem arr_rhs_0 (i : S50000x128.Idx) (q : xw1.contr.Idx) : (xw1.rhsIdx i q 0).val = (q ⟨0, by decide⟩).val :=
  xw1.rhsIdx_val_of_single rfl i q
theorem arr_rhs_1 (i : S50000x128.Idx) (q : xw1.contr.Idx) : (xw1.rhsIdx i q 1).val = (i 1).val := by
  unfold DotDims.rhsIdx
  rw [dif_neg (show ¬(1 : Fin S128x128.rank) ∈ xw1.rhsBatch by decide), dif_pos (show (1 : Fin S128x128.rank) ∈ xw1.rhsNonContracting by decide)]
  rfl

/-! ## The two products at an index -/

/-- What the body stores, entry by entry: the sum over the contracted axis of left times right (the narrowing of
    both operands is the identity over the reals, and the accumulator starts at zero). -/
theorem pay_apply (x0 : FVec Ideal S1000x128 .f32) (x1 : FVec Ideal S128x128 .f32) (y : S1000x128.Idx) :
    k0_pay1 (F := Ideal) x0 x1 y = ∑ k : Fin 128, x0 (lblk y k) * x1 (rblk y k) := by
  unfold k0_pay1
  refine (Ideal.matmul_constant_zero_apply dot_S1000x128_S128x128_S1000x128_1_0_0_1_n_n none _ _ y).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx y ((ValueIdx.contrEquiv1 dot_S1000x128_S128x128_S1000x128_1_0_0_1_n_n 128 rfl rfl).symm k) = lblk y k := funext fun a => Fin.ext (by
    match a with
    | ⟨0, _⟩ => exact blk_lhs_0 _ _
    | ⟨1, _⟩ => exact (blk_lhs_1 _ _).trans hk)
  have er : dot_S1000x128_S128x128_S1000x128_1_0_0_1_n_n.rhsIdx y ((ValueIdx.contrEquiv1 dot_S1000x128_S128x128_S1000x128_1_0_0_1_n_n 128 rfl rfl).symm k) = rblk y k := funext fun a => Fin.ext (by
    match a with
    | ⟨0, _⟩ => exact (blk_rhs_0 _ _).trans hk
    | ⟨1, _⟩ => exact blk_rhs_1 _ _)
  rw [el, er]
  rfl

/-- The whole arrays' product, entry by entry: the same sum. -/
theorem dot_apply (X : FVec Ideal S50000x128 .f32) (Wt : FVec Ideal S128x128 .f32) (i : S50000x128.Idx) :
    Host.dotGeneral (F := Ideal) xw1 none X Wt i = ∑ k : Fin 128, X (larr i k) * Wt (rarr i k) := by
  simp only [Host.dotGeneral]
  rw [Ideal.dotGeneral_apply, ← Equiv.sum_comp (ValueIdx.contrEquiv1 xw1 128 rfl rfl).symm]
  refine Finset.sum_congr rfl fun k _ => ?_
  have hk := ValueIdx.contrEquiv1_symm_val xw1 128 rfl rfl k
  have el : xw1.lhsIdx i ((ValueIdx.contrEquiv1 xw1 128 rfl rfl).symm k) = larr i k := funext fun a => Fin.ext (by
    match a with
    | ⟨0, _⟩ => exact arr_lhs_0 _ _
    | ⟨1, _⟩ => exact (arr_lhs_1 _ _).trans hk)
  have er : xw1.rhsIdx i ((ValueIdx.contrEquiv1 xw1 128 rfl rfl).symm k) = rarr i k := funext fun a => Fin.ext (by
    match a with
    | ⟨0, _⟩ => exact (arr_rhs_0 _ _).trans hk
    | ⟨1, _⟩ => exact arr_rhs_1 _ _)
  rw [el, er]

/-! ## From blocks to the array -/

theorem hz : (![0, 0] : Fin 2 → Nat) = fun _ => 0 := funext fun a => by fin_cases a <;> rfl

/-- The printed index maps over the grid: the left window's block row is the output's, every other block
    coordinate is 0, and the output's block rows stay below 50. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every block row is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

variable (V : (c : Dev nD) → (b : Ref sig .tc) → Buf (Elt Ideal) ((c : Thread nD τ).loc b))

/-- The two input arrays as the region finds them, and their blocks at a point, at their literal types. -/
abbrev xarr (c : Dev nD) : FVec Ideal S50000x128 .f32 := V c main_arg0
abbrev warr (c : Dev nD) : FVec Ideal S128x128 .f32 := V c main_arg1
abbrev xblk (c : Dev nD) (t : Fin cfg0.N) : FVec Ideal S1000x128 .f32 := iblk0 V c 0 t
abbrev wblk (c : Dev nD) (t : Fin cfg0.N) : FVec Ideal S128x128 .f32 := iblk0 V c 1 t

/-- The product of the two arrays as the region finds them. -/
abbrev prod (c : Dev nD) : FVec Ideal S50000x128 .f32 := Host.dotGeneral (F := Ideal) xw1 none (xarr V c) (warr V c)

/-- What point t writes back is block t of the product of the two arrays as the region finds them. -/
theorem flushed_eq (c : Dev nD) (t : Fin cfg0.N) :
    (dat0 (F := Ideal) V c).flushed 2 t = ((cfg0.win 2).blk t).view.read (Elt Ideal) (prod V c) := by
  show (cfg0.win 2).cut (grid0.coords t) ((dat0 (F := Ideal) V c).after 2 t) = _
  rw [after0_2]
  unfold out0_2
  rw [View.canon_unit_zero hz]
  simp only [View.ld_unit_zero (S := S1000x128) hz, View.ld_unit_zero (S := S128x128) hz]
  obtain ⟨e0, e1, e2, e3, e4, e5⟩ := idx_facts t
  funext j
  show k0_pay1 (F := Ideal) (xblk V c t) (wblk V c t) j = prod V c (((cfg0.win 2).blk t).view.emb j)
  refine (pay_apply (xblk V c t) (wblk V c t) j).trans ?_
  refine Eq.trans ?_ (dot_apply (xarr V c) (warr V c) (((cfg0.win 2).blk t).view.emb j)).symm
  refine Finset.sum_congr rfl fun k _ => ?_
  have h0 : ((cfg0.win 0).blk t).view.emb (lblk j k) = larr (((cfg0.win 2).blk t).view.emb j) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 128 + 1 * k.val = k.val; omega
  have h1 : ((cfg0.win 1).blk t).view.emb (rblk j k) = rarr (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show xarr V c (((cfg0.win 0).blk t).view.emb (lblk j k)) * warr V c (((cfg0.win 1).blk t).view.emb (rblk j k)) = _
  rw [h0, h1]

/-- An index of the output array is in point t's block iff each coordinate is in the block's range on its axis. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v23).slice (win0_2.rect t)).set ↔ _
  rw [View.set_slice_whole, Rect.mem_set_unit]
  exact Iff.rfl

/-- The fifty blocks tile the array: row r is in block r / 1000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The output array after the region: the product of the two input arrays as the region found them. -/
theorem arr_eq (c : Dev nD) : (dat0 (F := Ideal) V c).arrAt 2 cfg0.N = prod V c :=
  (dat0 (F := Ideal) V c).arrAt_eq_of_cover 2 (prod V c) (fun t _ => flushed_eq V c t) cover

end Cert.KernelIdeal.Region0

end
-- ==== Proof.Region1.lean ====
/-
  The second region as a value, over the exact reals.

  Fifty grid points again; at point t the body loads rows 1000·t … 1000·t + 999 of the left array (the rectified first
  layer, 128 columns) and the whole 128 × 16 right array, multiplies them from a zero accumulator (the reshaping of
  the left block to its own shape and the narrowing of both operands to bf16 are the identity over the reals) and
  stores the 1000 × 16 result, written back as rows 1000·t … 1000·t + 999 of the output. Entry (r, j) of a block's
  product is ∑ₖ left(r, k) · right(k, j) over the 128 contracted positions, which is entry (1000·t + r, j) of the whole
  arrays' product: the fifty blocks are the blocks of ONE product, they tile the 50000 rows, and the output array ends
  holding the product of the two arrays as the region found them.
-/
import proofs.«128289_j84808424227221_1_alg».proof.Proof.Gen.KernelIdeal.Frame
import proofs.«128289_j84808424227221_1_alg».proof.Proof.HostDots
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.KernelIdeal.Dots Idealize.ShloMosaic Idealize.ShloMosaic.TcCoe Idealize.SL.Sem
open Idealize.ShloMosaic.Pipeline (Dat)

/-! ## Where a product reads its operands -/

/-- Entry (r, ·) of a block's product reads the left block at (r, k) … -/
abbrev lblk (y : S1000x16.Idx) (k : Fin 128) : S1000x128.Idx := fun a => match a with
  | ⟨0, _⟩ => ⟨(y 0).val, (y 0).isLt⟩
  | ⟨1, _⟩ => ⟨k.val, k.isLt⟩
/-- … and entry (·, j) reads the right array at (k, j). -/
abbrev rblk (y : S1000x16.Idx) (k : Fin 128) : S128x16.Idx := fun a => match a with
  | ⟨0, _⟩ => ⟨k.val, k.isLt⟩
  | ⟨1, _⟩ => ⟨(y 1).val, (y 1).isLt⟩
/-- The same for the whole arrays. -/
abbrev larr (i : S50000x16.Idx) (k : Fin 128) : S50000x128.Idx := fun a => match a with
  | ⟨0, _⟩ => ⟨(i 0).val, (i 0).isLt⟩
  | ⟨1, _⟩ => ⟨k.val, k.isLt⟩
abbrev rarr (i : S50000x16.Idx) (k : Fin 128) : S128x16.Idx := fun a => match a with
  | ⟨0, _⟩ => ⟨k.val, k.isLt⟩
  | ⟨1, _⟩ => ⟨(i 1).val, (i 1).isLt⟩

/-! The operand indices of the block's product, axis by axis. -/
theorem blk_lhs_0 (i : S1000x16.Idx) (q : dot_S1000x128_S128x16_S1000x16_1_0_0_1_n_n.contr.Idx) :
    (dot_S1000x128_S128x16_S1000x16_1_0_0_1_n_n.lhsIdx i q 0).val = (i 0).val := by
  unfold DotDims.lhsIdx
  rw [dif_neg (show ¬(0 : Fin S1000x128.rank) ∈ dot_S1000x128_S128x16_S1000x16_1_0_0_1_n_n.lhsBatch by decide), dif_pos (show (0 : Fin S1000x128.rank) ∈ dot_S1000x128_S128x16_S1000x16_1_0_0_1_n_n.lhsNonContracting by decide)]
  rfl
theorem blk_lhs_1 (i : S1000x16.Idx) (q : dot_S1000x128_S128x16_S1000x16_1_0_0_1_n_n.contr.Idx) :
    (dot_S1000x128_S128x16_S1000x16_1_0_0_1_n_n.lhsIdx i q 1).val = (q ⟨0, by decide⟩).val :=
  dot_S1000x128_S128x16_S1000x16_1_0_0_1_n_n.lhsIdx_val_of_single rfl i q
theorem blk_rhs_0 (i : S1000x16.Idx) (q : dot_S1000x128_S128x16_S1000x16_1_0_0_1_n_n.contr.Idx) :
    (dot_S1000x128_S128x16_S1000x16_1_0_0_1_n_n.rhsIdx i q 0).val = (q ⟨0, by decide⟩).val :=
  dot_S1000x128_S128x16_S1000x16_1_0_0_1_n_n.rhsIdx_val_of_single rfl i q
theorem blk_rhs_1 (i : S1000x16.Idx) (q : dot_S1000x128_S128x16_S1000x16_1_0_0_1_n_n.contr.Idx) :
    (dot_S1000x128_S128x16_S1000x16_1_0_0_1_n_n.rhsIdx i q 1).val = (i 1).val := by
  unfold DotDims.rhsIdx
  rw [dif_neg (show ¬(1 : Fin S128x16.rank) ∈ dot_S1000x128_S128x16_S1000x16_1_0_0_1_n_n.rhsBatch by decide), dif_pos (show (1 : Fin S128x16.rank) ∈ dot_S1000x128_S128x16_S1000x16_1_0_0_1_n_n.rhsNonContracting by decide)]
  rfl

/-! The operand indices of the whole arrays' product, axis by axis. -/
theorem arr_lhs_0 (i : S50000x16.Idx) (q : hw2.contr.Idx) : (hw2.lhsIdx i q 0).val = (i 0).val := by
  unfold DotDims.lhsIdx
  rw [dif_neg (show ¬(0 : Fin S50000x128.rank) ∈ hw2.lhsBatch by decide), dif_pos (show (0 : Fin S50000x128.rank) ∈ hw2.lhsNonContracting by decide)]
  rfl
theorem arr_lhs_1 (i : S50000x16.Idx) (q : hw2.contr.Idx) : (hw2.lhsIdx i q 1).val = (q ⟨0, by decide⟩).val :=
  hw2.lhsIdx_val_of_single rfl i q
theorem arr_rhs_0 (i : S50000x16.Idx) (q : hw2.contr.Idx) : (hw2.rhsIdx i q 0).val = (q ⟨0, by decide⟩).val :=
  hw2.rhsIdx_val_of_single rfl i q
theorem arr_rhs_1 (i : S50000x16.Idx) (q : hw2.contr.Idx) : (hw2.rhsIdx i q 1).val = (i 1).val := by
  unfold DotDims.rhsIdx
  rw [dif_neg (show ¬(1 : Fin S128x16.rank) ∈ hw2.rhsBatch by decide), dif_pos (show (1 : Fin S128x16.rank) ∈ hw2.rhsNonContracting by decide)]
  rfl

/-! ## The two products at an index -/

/-- What the body stores, entry by entry: the sum over the contracted axis of left times right (the reshaping of the
    left block to its own shape is the identity, the narrowing of both operands is the identity over the reals, and
    the accumulator starts at zero). -/
theorem pay_apply (x0 : FVec Ideal S1000x128 .f32) (x1 : FVec Ideal S128x16 .f32) (y : S1000x16.Idx) :
    k1_pay1 (F := Ideal) x0 x1 y = ∑ k : Fin 128, x0 (lblk y k) * x1 (rblk y k) := by
  unfold k1_pay1
  refine (Ideal.matmul_constant_zero_apply dot_S1000x128_S128x16_S1000x16_1_0_0_1_n_n none _ _ y).trans ?_
  rw [← Equiv.sum_comp (ValueIdx.contrEquiv1 dot_S1000x128_S128x16_S1000x16_1_0_0_1_n_n 128 rfl rfl).symm]
  refine Finset.sum_congr rfl fun k _ => ?_
  have hk := ValueIdx.contrEquiv1_symm_val dot_S1000x128_S128x16_S1000x16_1_0_0_1_n_n 128 rfl rfl k
  have el : dot_S1000x128_S128x16_S1000x16_1_0_0_1_n_n.lhsIdx y ((ValueIdx.contrEquiv1 dot_S1000x128_S128x16_S1000x16_1_0_0_1_n_n 128 rfl rfl).symm k) = lblk y k := funext fun a => Fin.ext (by
    match a with
    | ⟨0, _⟩ => exact blk_lhs_0 _ _
    | ⟨1, _⟩ => exact (blk_lhs_1 _ _).trans hk)
  have er : dot_S1000x128_S128x16_S1000x16_1_0_0_1_n_n.rhsIdx y ((ValueIdx.contrEquiv1 dot_S1000x128_S128x16_S1000x16_1_0_0_1_n_n 128 rfl rfl).symm k) = rblk y k := funext fun a => Fin.ext (by
    match a with
    | ⟨0, _⟩ => exact (blk_rhs_0 _ _).trans hk
    | ⟨1, _⟩ => exact blk_rhs_1 _ _)
  rw [el, er]
  simp only [shapeCast_self]
  rfl

/-- The whole arrays' product, entry by entry: the same sum. -/
theorem dot_apply (X : FVec Ideal S50000x128 .f32) (Wt : FVec Ideal S128x16 .f32) (i : S50000x16.Idx) :
    Host.dotGeneral (F := Ideal) hw2 none X Wt i = ∑ k : Fin 128, X (larr i k) * Wt (rarr i k) := by
  simp only [Host.dotGeneral]
  rw [Ideal.dotGeneral_apply, ← Equiv.sum_comp (ValueIdx.contrEquiv1 hw2 128 rfl rfl).symm]
  refine Finset.sum_congr rfl fun k _ => ?_
  have hk := ValueIdx.contrEquiv1_symm_val hw2 128 rfl rfl k
  have el : hw2.lhsIdx i ((ValueIdx.contrEquiv1 hw2 128 rfl rfl).symm k) = larr i k := funext fun a => Fin.ext (by
    match a with
    | ⟨0, _⟩ => exact arr_lhs_0 _ _
    | ⟨1, _⟩ => exact (arr_lhs_1 _ _).trans hk)
  have er : hw2.rhsIdx i ((ValueIdx.contrEquiv1 hw2 128 rfl rfl).symm k) = rarr i k := funext fun a => Fin.ext (by
    match a with
    | ⟨0, _⟩ => exact (arr_rhs_0 _ _).trans hk
    | ⟨1, _⟩ => exact arr_rhs_1 _ _)
  rw [el, er]

/-! ## From blocks to the array -/

theorem hz : (![0, 0] : Fin 2 → Nat) = fun _ => 0 := funext fun a => by fin_cases a <;> rfl

/-- The printed index maps over the grid: the left window's block row is the output's, every other block
    coordinate is 0, and the output's block rows stay below 50. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 49 :=
  (by decide +kernel : ∀ t : Fin grid1.N, _)

/-- Every block row is some point's. -/
theorem idx_onto : ∀ q0 : Fin 50, ∃ t : Fin cfg1.N, win1_2.index t = ![q0.val, 0] :=
  (by decide +kernel : ∀ q0 : Fin 50, ∃ t : Fin grid1.N, win1_2.index t = ![q0.val, 0])

variable (V : (c : Dev nD) → (b : Ref sig .tc) → Buf (Elt Ideal) ((c : Thread nD τ).loc b))

/-- The two input arrays as the region finds them, and their blocks at a point, at their literal types. -/
abbrev harr (c : Dev nD) : FVec Ideal S50000x128 .f32 := V c main_v40
abbrev warr (c : Dev nD) : FVec Ideal S128x16 .f32 := V c main_arg3
abbrev hblk (c : Dev nD) (t : Fin cfg1.N) : FVec Ideal S1000x128 .f32 := iblk1 V c 0 t
abbrev wblk (c : Dev nD) (t : Fin cfg1.N) : FVec Ideal S128x16 .f32 := iblk1 V c 1 t

/-- The product of the two arrays as the region finds them. -/
abbrev prod (c : Dev nD) : FVec Ideal S50000x16 .f32 := Host.dotGeneral (F := Ideal) hw2 none (harr V c) (warr V c)

/-- What point t writes back is block t of the product of the two arrays as the region finds them. -/
theorem flushed_eq (c : Dev nD) (t : Fin cfg1.N) :
    (dat1 (F := Ideal) V c).flushed 2 t = ((cfg1.win 2).blk t).view.read (Elt Ideal) (prod V c) := by
  show (cfg1.win 2).cut (grid1.coords t) ((dat1 (F := Ideal) V c).after 2 t) = _
  rw [after1_2]
  unfold out1_2
  rw [View.canon_unit_zero hz]
  simp only [View.ld_unit_zero (S := S1000x128) hz, View.ld_unit_zero (S := S128x16) hz]
  obtain ⟨e0, e1, e2, e3, e4, e5⟩ := idx_facts t
  funext j
  show k1_pay1 (F := Ideal) (hblk V c t) (wblk V c t) j = prod V c (((cfg1.win 2).blk t).view.emb j)
  refine (pay_apply (hblk V c t) (wblk V c t) j).trans ?_
  refine Eq.trans ?_ (dot_apply (harr V c) (warr V c) (((cfg1.win 2).blk t).view.emb j)).symm
  refine Finset.sum_congr rfl fun k _ => ?_
  have h0 : ((cfg1.win 0).blk t).view.emb (lblk j k) = larr (((cfg1.win 2).blk t).view.emb j) k := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 128 + 1 * k.val = k.val; omega
  have h1 : ((cfg1.win 1).blk t).view.emb (rblk j k) = rarr (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 16 + 1 * (j 1).val = win1_2.index t (1 : Fin 2) * 16 + 1 * (j 1).val; omega
  show harr V c (((cfg1.win 0).blk t).view.emb (lblk j k)) * warr V c (((cfg1.win 1).blk t).view.emb (rblk j k)) = _
  rw [h0, h1]

/-- An index of the output array is in point t's block iff each coordinate is in the block's range on its axis. -/
theorem mem_blk (t : Fin cfg1.N) (i : S50000x16.Idx) :
    i ∈ ((cfg1.win 2).blk t).view.set ↔ ∀ a : Fin 2, win1_2.index t a * S1000x16.size a ≤ (i a).val ∧ (i a).val < win1_2.index t a * S1000x16.size a + S1000x16.size a := by
  show i ∈ ((View.whole main_v41).slice (win1_2.rect t)).set ↔ _
  rw [View.set_slice_whole, Rect.mem_set_unit]
  exact Iff.rfl

/-- The fifty blocks tile the array: row r is in block r / 1000. -/
theorem cover (i : S50000x16.Idx) : ∃ t : Fin cfg1.N, (cfg1.win 2).flush t = true ∧ i ∈ ((cfg1.win 2).blk t).view.set := by
  have hi0 : (i 0).val < 50000 := (i 0).isLt
  have hi1 : (i 1).val < 16 := (i 1).isLt
  obtain ⟨t, ht⟩ := idx_onto ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 16 ≤ (i 1).val ∧ (i 1).val < win1_2.index t (1 : Fin 2) * 16 + 16; omega

/-- The output array after the region: the product of the two input arrays as the region found them. -/
theorem arr_eq (c : Dev nD) : (dat1 (F := Ideal) V c).arrAt 2 cfg1.N = prod V c :=
  (dat1 (F := Ideal) V c).arrAt_eq_of_cover 2 (prod V c) (fun t _ => flushed_eq V c t) cover

end Cert.KernelIdeal.Region1

end
-- ==== Proof.Fold.lean ====
/-
  The kernel program's run as ONE line of host operations, over the exact reals.

  @main is seven segments: host operations, the first region, two stretches of host operations, the second region, two
  more stretches. The buffers' contents at each boundary are a fold from the launch memory. A region changes only its
  output array (its two input arrays are read, every other buffer is bypassed), and leaves there the product of its
  two input arrays as it found them: so a region's exit contents are its entry contents with ONE host product applied,
  and the contents at the last boundary are those after the single line `kops`: the five host stretches with a product
  standing where each region stood.
-/
import proofs.«128289_j84808424227221_1_alg».proof.Proof.Gen.KernelIdeal.Frame
import proofs.«128289_j84808424227221_1_alg».proof.Proof.HostDots
import proofs.«128289_j84808424227221_1_alg».proof.Proof.Region0
import proofs.«128289_j84808424227221_1_alg».proof.Proof.Region1
import Idealize.ShloMosaic.Lib.Pipeline.Frame
import Idealize.ShloMosaic.Lib.StableHlo.Run

set_option maxRecDepth 16384

noncomputable section

namespace Cert.KernelIdeal.Fold

open Cert.KernelIdeal Cert.KernelIdeal.Gen Cert.KernelIdeal.Dots Idealize.ShloMosaic Idealize.ShloMosaic.TcCoe Idealize.SL.Sem

variable (m : (ℓ : Loc nD τ sig) → Buf (Elt Ideal) ℓ) (ρ : Dev nD → PrngReg)

/-- All of @main's operations in order, a product where each region stood. -/
abbrev kops : List (HloOp τ sig (Elt Ideal)) :=
  hostOps0 ++ dotOp1 :: (hostOps1 ++ (hostOps1_1 ++ dotOp2 :: (hostOps2 ++ hostOps2_1)))

/-- The first region's exit contents are its entry contents with the first product applied: the output array holds
    the product, the two input arrays and every bypassed buffer are as they were. -/
theorem W2_eq (c : Dev nD) : W2 (F := Ideal) m ρ c = (dotOp1 (F := Ideal)).result (W1 m ρ c) := by
  funext b
  by_cases h : ∃ w, Proc.devRef .tc (Pipeline.arrRef spec0 w) = b
  · obtain ⟨w, rfl⟩ := h
    rw [W2_arr]
    match w with
    | ⟨0, _⟩ =>
      exact (((dat0 (V1 m ρ) c).arrAt_in 0 rfl _).trans (A_eq0 (V1 m ρ) c 0)).trans
        (StableHlo.binary_result_ne main_arg0 main_arg1 main_v23 _ _ _ _ (W1 m ρ c) (r := main_arg0) (by decide)).symm
    | ⟨1, _⟩ =>
      exact (((dat0 (V1 m ρ) c).arrAt_in 1 rfl _).trans (A_eq0 (V1 m ρ) c 1)).trans
        (StableHlo.binary_result_ne main_arg0 main_arg1 main_v23 _ _ _ _ (W1 m ρ c) (r := main_arg1) (by decide)).symm
    | ⟨2, _⟩ =>
      exact (Region0.arr_eq (V1 m ρ) c).trans
        (StableHlo.binary_result main_arg0 main_arg1 main_v23 _ _ _ _ (W1 m ρ c)).symm
  · have hb : b ∉ (dotOp1 (F := Ideal)).writes := by
      rw [dotOp1_writes, Finset.mem_singleton]
      intro e
      exact h ⟨2, e.symm⟩
    rw [HloOp.result_of_not_mem _ _ hb]
    unfold W2 Pipeline.withArrays
    rw [dif_neg h]

/-- The second region's exit contents are its entry contents with the second product applied. -/
theorem W5_eq (c : Dev nD) : W5 (F := Ideal) m ρ c = (dotOp2 (F := Ideal)).result (W4 m ρ c) := by
  funext b
  by_cases h : ∃ w, Proc.devRef .tc (Pipeline.arrRef spec1 w) = b
  · obtain ⟨w, rfl⟩ := h
    rw [W5_arr]
    match w with
    | ⟨0, _⟩ =>
      exact (((dat1 (V4 m ρ) c).arrAt_in 0 rfl _).trans (A_eq1 (V4 m ρ) c 0)).trans
        (StableHlo.binary_result_ne main_v40 main_arg3 main_v41 _ _ _ _ (W4 m ρ c) (r := main_v40) (by decide)).symm
    | ⟨1, _⟩ =>
      exact (((dat1 (V4 m ρ) c).arrAt_in 1 rfl _).trans (A_eq1 (V4 m ρ) c 1)).trans
        (StableHlo.binary_result_ne main_v40 main_arg3 main_v41 _ _ _ _ (W4 m ρ c) (r := main_arg3) (by decide)).symm
    | ⟨2, _⟩ =>
      exact (Region1.arr_eq (V4 m ρ) c).trans
        (StableHlo.binary_result main_v40 main_arg3 main_v41 _ _ _ _ (W4 m ρ c)).symm
  · have hb : b ∉ (dotOp2 (F := Ideal)).writes := by
      rw [dotOp2_writes, Finset.mem_singleton]
      intro e
      exact h ⟨2, e.symm⟩
    rw [HloOp.result_of_not_mem _ _ hb]
    unfold W5 Pipeline.withArrays
    rw [dif_neg h]

/-- The contents at the last boundary are those after the one line `kops` from the launch memory. -/
theorem W7_eq (c : Dev nD) : W7 (F := Ideal) m ρ c = StableHlo.after kops (W0 m ρ c) := by
  unfold kops
  rw [StableHlo.after_append, StableHlo.after_cons, StableHlo.after_append, StableHlo.after_append,
    StableHlo.after_cons, StableHlo.after_append]
  show StableHlo.after hostOps2_1 (StableHlo.after hostOps2 (W5 m ρ c)) = _
  rw [W5_eq]
  show StableHlo.after hostOps2_1 (StableHlo.after hostOps2 ((dotOp2 (F := Ideal)).result
    (StableHlo.after hostOps1_1 (StableHlo.after hostOps1 (W2 m ρ c))))) = _
  rw [W2_eq]

end Cert.KernelIdeal.Fold

end
-- ==== Proof.Bridge.lean ====
/-
  The two programs' results are one function of the arguments.

  Read over the exact reals, the kernel program's result buffer holds what the single line of host operations `kops`
  leaves there from the launch memory (the fold of its seven segments, each region one product), and the reference's
  holds its own line's term. The two lines are the same operations in the same order — the self-loops, the degree
  normalisation, the two layers' gathers, scalings and scatter-additions, the pooling and the log-softmax — and where
  the reference multiplies two whole arrays the kernel's line has the product its region was shown to leave. So once the
  arguments agree the two terms are the same term, operation by operation: the kernel's line is read off operation by
  operation (each result at its own buffer is its function of its operands' contents, every other buffer keeps what it
  held), and what is left differs from the reference's term only in which program's copy of a shape or a dimension
  record a name denotes, and the copies are the same literals.
-/
import proofs.«128289_j84808424227221_1_alg».proof.Proof.Gen.KernelIdeal.Frame
import proofs.«128289_j84808424227221_1_alg».proof.Proof.HostDots
import proofs.«128289_j84808424227221_1_alg».proof.Proof.Fold
import proofs.«128289_j84808424227221_1_alg».proof.Proof.Gen.ReferenceIdeal.Run
import Idealize.ShloMosaic.PureOps.Ideal

set_option maxRecDepth 16384

noncomputable section

namespace Cert.KernelIdeal.Bridge

open Cert.KernelIdeal Cert.KernelIdeal.Gen Cert.KernelIdeal.Dots Cert.KernelIdeal.Fold
open Idealize.ShloMosaic Idealize.ShloMosaic.TcCoe Idealize.SL.Sem Idealize.ShloMosaic.StableHlo

variable {F : FTy → Type} [FloatOps F]

/-- The rectifier's three operations (a zero, its spread over the array, the maximum with it), on plain references. -/
abbrev reluOps : List (HloOp τ sig (Elt F)) :=
  [ StableHlo.nullary main_call0_cst (constant S_ .f32 0x00000000#32),
    StableHlo.unary main_call0_cst main_call0_v0 (broadcastInDim S50000x128 ![] bcast_S_S50000x128 : (⟨S_, .f32⟩ : BufTy).Contents (Elt F) → (⟨S50000x128, .f32⟩ : BufTy).Contents (Elt F)),
    StableHlo.binary main_v39 main_call0_v0 main_v40 (maximumf : (⟨S50000x128, .f32⟩ : BufTy).Contents (Elt F) → (⟨S50000x128, .f32⟩ : BufTy).Contents (Elt F) → (⟨S50000x128, .f32⟩ : BufTy).Contents (Elt F)) ]

/-- The log-softmax's fifteen operations (the row maximum, the shift by it, the exponentials, their row sum, its
    logarithm, the second shift), on plain references. -/
abbrev lsmOps : List (HloOp τ sig (Elt F)) :=
  [ StableHlo.nullary main_call1_cst (constant S_ .f32 0xFF800000#32),
    StableHlo.binary main_v69 main_call1_cst main_call1_v0 ((fun x v => Host.reduce FloatOps.maximumf x v reducesTo_S500x16_S500_d1 h_S_) : (⟨S500x16, .f32⟩ : BufTy).Contents (Elt F) → (⟨S_, .f32⟩ : BufTy).Contents (Elt F) → (⟨S500, .f32⟩ : BufTy).Contents (Elt F)),
    StableHlo.nullary main_call1_cst_0 (constant S_ .f32 0xFF800000#32),
    StableHlo.unary main_call1_cst_0 main_call1_v1 (broadcastInDim S500 ![] bcast_S_S500 : (⟨S_, .f32⟩ : BufTy).Contents (Elt F) → (⟨S500, .f32⟩ : BufTy).Contents (Elt F)),
    StableHlo.binary main_call1_v1 main_call1_v0 main_call1_v2 (maximumf : (⟨S500, .f32⟩ : BufTy).Contents (Elt F) → (⟨S500, .f32⟩ : BufTy).Contents (Elt F) → (⟨S500, .f32⟩ : BufTy).Contents (Elt F)),
    StableHlo.unary main_call1_v2 main_call1_v3 (broadcastInDim S500x1 ![0] bcast_S500_S500x1_0 : (⟨S500, .f32⟩ : BufTy).Contents (Elt F) → (⟨S500x1, .f32⟩ : BufTy).Contents (Elt F)),
    StableHlo.unary main_call1_v3 main_call1_v4 (broadcastInDim S500x16 ![0, 1] bcast_S500x1_S500x16_0_1 : (⟨S500x1, .f32⟩ : BufTy).Contents (Elt F) → (⟨S500x16, .f32⟩ : BufTy).Contents (Elt F)),
    StableHlo.binary main_v69 main_call1_v4 main_call1_v5 (subf : (⟨S500x16, .f32⟩ : BufTy).Contents (Elt F) → (⟨S500x16, .f32⟩ : BufTy).Contents (Elt F) → (⟨S500x16, .f32⟩ : BufTy).Contents (Elt F)),
    StableHlo.unary main_call1_v5 main_call1_v6 (Host.exp : (⟨S500x16, .f32⟩ : BufTy).Contents (Elt F) → (⟨S500x16, .f32⟩ : BufTy).Contents (Elt F)),
    StableHlo.nullary main_call1_cst_1 (constant S_ .f32 0x00000000#32),
    StableHlo.binary main_call1_v6 main_call1_cst_1 main_call1_v7 ((fun x v => Host.reduceAdd x v reducesTo_S500x16_S500_d1 h_S_) : (⟨S500x16, .f32⟩ : BufTy).Contents (Elt F) → (⟨S_, .f32⟩ : BufTy).Contents (Elt F) → (⟨S500, .f32⟩ : BufTy).Contents (Elt F)),
    StableHlo.unary main_call1_v7 main_call1_v8 (broadcastInDim S500x1 ![0] bcast_S500_S500x1_0 : (⟨S500, .f32⟩ : BufTy).Contents (Elt F) → (⟨S500x1, .f32⟩ : BufTy).Contents (Elt F)),
    StableHlo.unary main_call1_v8 main_call1_v9 (Host.log : (⟨S500x1, .f32⟩ : BufTy).Contents (Elt F) → (⟨S500x1, .f32⟩ : BufTy).Contents (Elt F)),
    StableHlo.unary main_call1_v9 main_call1_v10 (broadcastInDim S500x16 ![0, 1] bcast_S500x1_S500x16_0_1 : (⟨S500x1, .f32⟩ : BufTy).Contents (Elt F) → (⟨S500x16, .f32⟩ : BufTy).Contents (Elt F)),
    StableHlo.binary main_call1_v5 main_call1_v10 main_v70 (subf : (⟨S500x16, .f32⟩ : BufTy).Contents (Elt F) → (⟨S500x16, .f32⟩ : BufTy).Contents (Elt F) → (⟨S500x16, .f32⟩ : BufTy).Contents (Elt F)) ]

/-- The generated lists spell the same operations through typed references; the transport along a type equation that
    holds by computation is the identity. -/
theorem relu_eq : (hostOps1_1 : List (HloOp τ sig (Elt F))) = reluOps := rfl
theorem lsm_eq : (hostOps2_1 : List (HloOp τ sig (Elt F))) = lsmOps := rfl

/-- A concatenation of two operands as a function of the two: written so, its side condition no longer depends on
    the operands, and each can be rewritten in place. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h
theorem concatenate_eq_cat2 {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ h x y := rfl

set_option maxHeartbeats 4000000 in
/-- The reference's result term at arguments that agree with the kernel program's launch memory is what the kernel
    program's line of operations leaves in its result buffer. -/
theorem tree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.Value.res_main_v70 (F := Ideal) m' c
      = StableHlo.after kops (fun b => m ((c : Dev nD), b)) (Proc.devRef .tc main_v70) := by
  -- the reference's term, its eight argument reads rewritten to the kernel program's
  unfold Cert.ReferenceIdeal.Value.res_main_v70
  rw [h0, h1, h2, h3, h4, h5, h6, h7]
  symm
  -- the kernel program's line, the two private functions' operations on plain references
  have hk : (kops : List (HloOp τ sig (Elt Ideal)))
      = hostOps0 ++ dotOp1 :: (hostOps1 ++ (reluOps ++ dotOp2 :: (hostOps2 ++ lsmOps))) := by
    unfold kops; rw [relu_eq, lsm_eq]
  rw [hk]
  simp only [hostOps0, hostOps1, reluOps, hostOps2, lsmOps, List.cons_append, List.nil_append]
  -- every operation's result at its own buffer is its function of its operands' contents; elsewhere, what was there
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_eq_cat2]
  simp only [cat2]
  rfl

end Cert.KernelIdeal.Bridge

end
-- ==== Proof.lean ====
/-
  Two graph-convolution layers, mean pooling over graphs and a log-softmax: the kernel program against its reference.

  Both programs add self-loops, normalise by the square roots of the in-degrees, and twice transform the node features
  by a weight matrix, gather along the edges, scale, and scatter-add at the targets; then they average per graph and
  take a log-softmax. They are the same host operations in the same order except for the two matrix products, which
  the reference computes as whole-array products and the kernel program in two pipelined regions, fifty row blocks of a
  thousand rows each, narrowing both operands to bf16 and accumulating in f32 from zero. Over the exact reals the
  narrowing is the identity and a block's product is the corresponding block of the whole product, so each region
  leaves in its output array exactly the reference's product of the same two arrays (Proof/Region0.lean,
  Proof/Region1.lean); the program's run is then one line of host operations (Proof/Fold.lean), whose result is the
  reference's term once the arguments agree (Proof/Bridge.lean). No law of arithmetic beyond the reading of a product
  as a sum over the contracted axis is used, so finiteness of the inputs is never opened. The idealization rewrote
  nothing, so `preserves` holds trivially; the frames are the generated ones, and the reference's frame is its
  generated run with the result dropped.
-/
import proofs.«128289_j84808424227221_1_alg».proof.Defs
import proofs.«128289_j84808424227221_1_alg».proof.Proof.Gen.Kernel
import proofs.«128289_j84808424227221_1_alg».proof.Proof.Gen.Kernel.Skeleton
import proofs.«128289_j84808424227221_1_alg».proof.Proof.Gen.Kernel.Launch
import proofs.«128289_j84808424227221_1_alg».proof.Proof.Gen.Kernel.Points
import proofs.«128289_j84808424227221_1_alg».proof.Proof.Gen.Kernel.Frame
import proofs.«128289_j84808424227221_1_alg».proof.Proof.Gen.KernelIdeal
import proofs.«128289_j84808424227221_1_alg».proof.Proof.Gen.KernelIdeal.Skeleton
import proofs.«128289_j84808424227221_1_alg».proof.Proof.Gen.KernelIdeal.Launch
import proofs.«128289_j84808424227221_1_alg».proof.Proof.Gen.KernelIdeal.Points
import proofs.«128289_j84808424227221_1_alg».proof.Proof.Gen.KernelIdeal.Frame
import proofs.«128289_j84808424227221_1_alg».proof.Proof.Gen.ReferenceIdeal
import proofs.«128289_j84808424227221_1_alg».proof.Proof.Gen.Pre_finite_inputs
import proofs.«128289_j84808424227221_1_alg».proof.Proof.Gen.ReferenceIdeal.Run
import proofs.«128289_j84808424227221_1_alg».proof.Proof.KernelRun
import proofs.«128289_j84808424227221_1_alg».proof.Proof.Fold
import proofs.«128289_j84808424227221_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its reading over the exact reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and both end with the result buffer at the same
    contents: what the kernel program's one line of host operations leaves there. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v70),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.KernelIdeal.Bridge.tree m m' c (hagree c).1 (hagree c).2.1 (hagree c).2.2.1 (hagree c).2.2.2.1
    (hagree c).2.2.2.2.1 (hagree c).2.2.2.2.2.1 (hagree c).2.2.2.2.2.2.1 (hagree c).2.2.2.2.2.2.2).trans
    (congrFun (Cert.KernelIdeal.Fold.W7_eq m ρ c) (Proc.devRef .tc Cert.KernelIdeal.main_v70)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
